-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S400000x2 : Shape := ⟨2, ![400000, 2]⟩
abbrev S128x128 : Shape := ⟨2, ![128, 128]⟩
abbrev S1x128 : Shape := ⟨2, ![1, 128]⟩
abbrev S128 : Shape := ⟨1, ![128]⟩
abbrev S128x384 : Shape := ⟨2, ![128, 384]⟩
abbrev S2x384 : Shape := ⟨2, ![2, 384]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S2x384 : S_.BroadcastsInDim S2x384 (![] : Fin 0 → Fin S2x384.rank)
  reducesTo_S2x384_S_d0_1 : S2x384.ReducesTo [0, 1] S_

variable [Facts]

def fn_part3 {F : FTy → Type} [FloatOps F] (main_arg13 : FVec F S128x384 .f32) (main_arg14 : FVec F S2x384 .f32) (main_v48 : IVec S_ 1) (main_v49 : FVec F S128x384 .f32) (main_v50 : FVec F S128x384 .f32) : IVec S_ 1 :=
  let main_v51 : IVec S128x384 1 := cmpf .olt main_v49 main_v50
  let main_c_19 : IVec S_ 1 := constantI S_ 1 1#1
  let main_v52 : IVec S_ 1 := (fun x v => Host.reduce IntOp.andi x v reducesTo_S128x384_S_d0_1 h_S_) main_v51 main_c_19
  let main_v53 : IVec S_ 1 := andi main_v48 main_v52
  let main_v54 : FVec F S128x384 .f32 := Host.absf main_arg13
  let main_cst_20 : FVec F S_ .f32 := constant S_ .f32 0x7F800000#32
  let main_v55 : FVec F S128x384 .f32 := broadcastInDim S128x384 ![] bcast_S_S128x384 main_cst_20
  let main_v56 : IVec S128x384 1 := cmpf .olt main_v54 main_v55
  let main_c_21 : IVec S_ 1 := constantI S_ 1 1#1
  let main_v57 : IVec S_ 1 := (fun x v => Host.reduce IntOp.andi x v reducesTo_S128x384_S_d0_1 h_S_) main_v56 main_c_21
  let main_v58 : IVec S_ 1 := andi main_v53 main_v57
  let main_v59 : FVec F S2x384 .f32 := Host.absf main_arg14
  let main_cst_22 : FVec F S_ .f32 := constant S_ .f32 0x7F800000#32
  let main_v60 : FVec F S2x384 .f32 := broadcastInDim S2x384 ![] bcast_S_S2x384 main_cst_22
  let main_v61 : IVec S2x384 1 := cmpf .olt main_v59 main_v60
  let main_c_23 : IVec S_ 1 := constantI S_ 1 1#1
  let main_v62 : IVec S_ 1 := (fun x v => Host.reduce IntOp.andi x v reducesTo_S2x384_S_d0_1 h_S_) main_v61 main_c_23
  let main_v63 : IVec S_ 1 := andi main_v58 main_v62
  main_v63

def fn_part2 {F : FTy → Type} [FloatOps F] (main_arg9 : FVec F S128 .f32) (main_arg10 : FVec F S128 .f32) (main_arg11 : FVec F S128 .f32) (main_arg12 : FVec F S128x384 .f32) (main_arg13 : FVec F S128x384 .f32) (main_arg14 : FVec F S2x384 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x384 .f32 := Host.absf main_arg12
  let main_cst_18 : FVec F S_ .f32 := constant S_ .f32 0x7F800000#32
  let main_v50 : FVec F S128x384 .f32 := broadcastInDim S128x384 ![] bcast_S_S128x384 main_cst_18
  fn_part3 (F := F) main_arg13 main_arg14 main_v48 main_v49 main_v50

def fn_part1 {F : FTy → Type} [FloatOps F] (main_arg6 : FVec F S1x128 .f32) (main_arg7 : FVec F S1x128 .f32) (main_arg8 : FVec F S128 .f32) (main_arg9 : FVec F S128 .f32) (main_arg10 : FVec F S128 .f32) (main_arg11 : FVec F S128 .f32) (main_arg12 : FVec F S128x384 .f32) (main_arg13 : FVec F S128x384 .f32) (main_arg14 : FVec F S2x384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg6
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1x128 .f32 := Host.absf main_arg7
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S400000x128 .f32) (main_arg1 : FVec F S400000x128 .f32) (main_arg2 : IVec S400000x2 32) (main_arg3 : IVec S400000x2 32) (main_arg4 : FVec F S128x128 .f32) (main_arg5 : FVec F S128x128 .f32) (main_arg6 : FVec F S1x128 .f32) (main_arg7 : FVec F S1x128 .f32) (main_arg8 : FVec F S128 .f32) (main_arg9 : FVec F S128 .f32) (main_arg10 : FVec F S128 .f32) (main_arg11 : FVec F S128 .f32) (main_arg12 : FVec F S128x384 .f32) (main_arg13 : FVec F S128x384 .f32) (main_arg14 : FVec F S2x384 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S400000x128 : Shape := ⟨2, ![400000, 128]⟩
abbrev S400000x2 : Shape := ⟨2, ![400000, 2]⟩
abbrev S128x128 : Shape := ⟨2, ![128, 128]⟩
abbrev S1x128 : Shape := ⟨2, ![1, 128]⟩
abbrev S128 : Shape := ⟨1, ![128]⟩
abbrev S128x384 : Shape := ⟨2, ![128, 384]⟩
abbrev S2x384 : Shape := ⟨2, ![2, 384]⟩
abbrev S400000x1 : Shape := ⟨2, ![400000, 1]⟩
abbrev S400000 : Shape := ⟨1, ![400000]⟩
abbrev S_ : Shape := ⟨0, ![]⟩
abbrev S1600x128 : Shape := ⟨2, ![1600, 128]⟩
abbrev S1x384 : Shape := ⟨2, ![1, 384]⟩
abbrev S384 : Shape := ⟨1, ![384]⟩
abbrev S1600x384 : Shape := ⟨2, ![1600, 384]⟩

abbrev nBuf : Space → Nat
  | .hbm => 42
  | .vmem => 19
  | .smem => 0
  | _ => 0

abbrev bufTy : (tb : Table) → Fin (tcTables nBuf tb) → BufTy
  | .hbm, ⟨0, _⟩ => ⟨S400000x128, .f32⟩
  | .hbm, ⟨1, _⟩ => ⟨S400000x128, .f32⟩
  | .hbm, ⟨2, _⟩ => ⟨S400000x2, .i32⟩
  | .hbm, ⟨3, _⟩ => ⟨S400000x2, .i32⟩
  | .hbm, ⟨4, _⟩ => ⟨S128x128, .f32⟩
  | .hbm, ⟨5, _⟩ => ⟨S128x128, .f32⟩
  | .hbm, ⟨6, _⟩ => ⟨S1x128, .f32⟩
  | .hbm, ⟨7, _⟩ => ⟨S1x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x384, .f32⟩
  | .hbm, ⟨13, _⟩ => ⟨S128x384, .f32⟩
  | .hbm, ⟨14, _⟩ => ⟨S2x384, .f32⟩
  | .hbm, ⟨15, _⟩ => ⟨S400000x1, .i32⟩
  | .hbm, ⟨16, _⟩ => ⟨S400000, .i32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x128, .f32⟩
  | .hbm, ⟨26, _⟩ => ⟨S400000x1, .i32⟩
  | .hbm, ⟨27, _⟩ => ⟨S400000, .i32⟩
  | .hbm, ⟨28, _⟩ => ⟨S_, .i32⟩
  | .hbm, ⟨29, _⟩ => ⟨S400000, .i32⟩
  | .hbm, ⟨30, _⟩ => ⟨S400000, .i1⟩
  | .hbm, ⟨31, _⟩ => ⟨S_, .i32⟩
  | .hbm, ⟨32, _⟩ => ⟨S400000, .i32⟩
  | .hbm, ⟨33, _⟩ => ⟨S400000, .i32⟩
  | .hbm, ⟨34, _⟩ => ⟨S400000, .i32⟩
  | .hbm, ⟨35, _⟩ => ⟨S400000x1, .i32⟩
  | .hbm, ⟨36, _⟩ => ⟨S400000x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S400000x128, .f32⟩
  | .local _ .vmem, ⟨0, _⟩ => ⟨S1600x128, .f32⟩
  | .local _ .vmem, ⟨1, _⟩ => ⟨S1600x128, .f32⟩
  | .local _ .vmem, ⟨2, _⟩ => ⟨S1600x128, .f32⟩
  | .local _ .vmem, ⟨3, _⟩ => ⟨S1600x128, .f32⟩
  | .local _ .vmem, ⟨4, _⟩ => ⟨S1600x128, .f32⟩
  | .local _ .vmem, ⟨5, _⟩ => ⟨S1600x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x384, .f32⟩
  | .local _ .vmem, ⟨15, _⟩ => ⟨S128x384, .f32⟩
  | .local _ .vmem, ⟨16, _⟩ => ⟨S2x384, .f32⟩
  | .local _ .vmem, ⟨17, _⟩ => ⟨S1600x128, .f32⟩
  | .local _ .vmem, ⟨18, _⟩ => ⟨S1600x128, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1600x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1600x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S400000x2_S400000x1_0_1 : S400000x2.Slices ![0, 1] S400000x1
  shapeCasts_S400000x1_S400000 : S400000x1.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  shapeCasts_S128_S1x128 : S128.ShapeCasts S1x128
  inb_S1600x128_S1600x128_0_0 : ∀ a, (![0, 0] : Fin 2 → Nat) a + S1600x128.size a ≤ S1600x128.size a
  h_S1600x128 : 0 < S1600x128.numel
  shapeCasts_S1600x128_S1600x128 : S1600x128.ShapeCasts S1600x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  broadcasts_S1x128_S1600x128 : S1x128.Broadcasts S1600x128
  shapeCasts_S1x128_S1x128 : S1x128.ShapeCasts S1x128
  inb_S128x384_S128x384_0_0 : ∀ a, (![0, 0] : Fin 2 → Nat) a + S128x384.size a ≤ S128x384.size a
  h_S128x384 : 0 < S128x384.numel
  inb_S2x384_S2x384_0_0 : ∀ a, (![0, 0] : Fin 2 → Nat) a + S2x384.size a ≤ S2x384.size a
  h_S2x384 : 0 < S2x384.numel
  slices_S2x384_o0_0_S1x384 : S2x384.Slices ![0, 0] S1x384
  shapeCasts_S1x384_S384 : S1x384.ShapeCasts S384
  slices_S2x384_o1_0_S1x384 : S2x384.Slices ![1, 0] S1x384
  shapeCasts_S384_S1x384 : S384.ShapeCasts S1x384
  broadcasts_S1x384_S1600x384 : S1x384.Broadcasts S1600x384
  slices_S1600x384_o0_0_S1600x128 : S1600x384.Slices ![0, 0] S1600x128
  slices_S1600x384_o0_128_S1600x128 : S1600x384.Slices ![0, 128] S1600x128
  slices_S1600x384_o0_256_S1600x128 : S1600x384.Slices ![0, 256] S1600x128
  gather_S400000x128_S400000x1_S400000x128_1_0_n_n_0_1_1128_wf : GatherDims.WF S400000x128 S400000x1 S400000x128 [1] [0] [] [0] [] 1 ![1, 128]
  dot_S1600x128_S128x128_S1600x128_1_0_0_1_n_n_wf : DotDims.WF S1600x128 S128x128 S1600x128 [1] [0] [0] [1] [] []
  dot_S1600x128_S128x384_S1600x384_1_0_0_1_n_n_wf : DotDims.WF S1600x128 S128x384 S1600x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x128.size a ≤ S400000x128.size a
  hwx0_0 : ∀ i : grid0.Coords, EltTy.bits .f32 = 32 ∨ (Rect.block (s := S400000x128) S1600x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x128.size a ≤ S400000x128.size a
  hwx0_1 : ∀ i : grid0.Coords, EltTy.bits .f32 = 32 ∨ (Rect.block (s := S400000x128) S1600x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x128.size a ≤ S400000x128.size a
  hwx0_2 : ∀ i : grid0.Coords, EltTy.bits .f32 = 32 ∨ (Rect.block (s := S400000x128) S1600x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x384.size a ≤ S128x384.size a
  hwx0_11 : ∀ i : grid0.Coords, EltTy.bits .f32 = 32 ∨ (Rect.block (s := S128x384) S128x384.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x384.size a ≤ S128x384.size a
  hwx0_12 : ∀ i : grid0.Coords, EltTy.bits .f32 = 32 ∨ (Rect.block (s := S128x384) S128x384.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2x384.size a ≤ S2x384.size a
  hwx0_13 : ∀ i : grid0.Coords, EltTy.bits .f32 = 32 ∨ (Rect.block (s := S2x384) S2x384.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1600x128.size a ≤ S400000x128.size a
  hwx0_14 : ∀ i : grid0.Coords, EltTy.bits .f32 = 32 ∨ (Rect.block (s := S400000x128) S1600x128.size (cc0_transform_14 i) (hinb0_14 i)).WholeWords (EltTy.packing .f32)

variable [Facts₀]

def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def dot_S1600x128_S128x128_S1600x128_1_0_0_1_n_n : DotDims S1600x128 S128x128 S1600x128 where
  lhsContracting := [1]
  rhsContracting := [0]
  lhsNonContracting := [0]
  rhsNonContracting := [1]
  lhsBatch := []
  rhsBatch := []
  wf := dot_S1600x128_S128x128_S1600x128_1_0_0_1_n_n_wf
def dot_S1600x128_S128x384_S1600x384_1_0_0_1_n_n : DotDims S1600x128 S128x384 S1600x384 where
  lhsContracting := [1]
  rhsContracting := [0]
  lhsNonContracting := [0]
  rhsNonContracting := [1]
  lhsBatch := []
  rhsBatch := []
  wf := dot_S1600x128_S128x384_S1600x384_1_0_0_1_n_n_wf

abbrev win0_0 : Pipeline.Window sig grid0 :=
  Pipeline.Window.ofSpec (Memref.whole main_v8) S1600x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1600x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1600x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S128x384.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S128x384.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S2x384.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v22) S1600x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S400000x128 : Shape := ⟨2, ![400000, 128]⟩
abbrev S400000x2 : Shape := ⟨2, ![400000, 2]⟩
abbrev S128x128 : Shape := ⟨2, ![128, 128]⟩
abbrev S1x128 : Shape := ⟨2, ![1, 128]⟩
abbrev S128 : Shape := ⟨1, ![128]⟩
abbrev S128x384 : Shape := ⟨2, ![128, 384]⟩
abbrev S2x384 : Shape := ⟨2, ![2, 384]⟩
abbrev S400000x1 : Shape := ⟨2, ![400000, 1]⟩
abbrev S400000 : Shape := ⟨1, ![400000]⟩
abbrev S_ : Shape := ⟨0, ![]⟩
abbrev S1x384 : Shape := ⟨2, ![1, 384]⟩
abbrev S384 : Shape := ⟨1, ![384]⟩
abbrev S400000x384 : Shape := ⟨2, ![400000, 384]⟩

abbrev nBuf : Space → Nat
  | .hbm => 110
  | .vmem => 0
  | .smem => 0
  | _ => 0

abbrev bufTy : (tb : Table) → Fin (tcTables nBuf tb) → BufTy
  | .hbm, ⟨0, _⟩ => ⟨S400000x128, .f32⟩
  | .hbm, ⟨1, _⟩ => ⟨S400000x128, .f32⟩
  | .hbm, ⟨2, _⟩ => ⟨S400000x2, .i32⟩
  | .hbm, ⟨3, _⟩ => ⟨S400000x2, .i32⟩
  | .hbm, ⟨4, _⟩ => ⟨S128x128, .f32⟩
  | .hbm, ⟨5, _⟩ => ⟨S128x128, .f32⟩
  | .hbm, ⟨6, _⟩ => ⟨S1x128, .f32⟩
  | .hbm, ⟨7, _⟩ => ⟨S1x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x384, .f32⟩
  | .hbm, ⟨13, _⟩ => ⟨S128x384, .f32⟩
  | .hbm, ⟨14, _⟩ => ⟨S2x384, .f32⟩
  | .hbm, ⟨15, _⟩ => ⟨S400000x1, .i32⟩
  | .hbm, ⟨16, _⟩ => ⟨S400000, .i32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x128, .f32⟩
  | .hbm, ⟨26, _⟩ => ⟨S400000x1, .i32⟩
  | .hbm, ⟨27, _⟩ => ⟨S400000, .i32⟩
  | .hbm, ⟨28, _⟩ => ⟨S_, .i32⟩
  | .hbm, ⟨29, _⟩ => ⟨S400000, .i32⟩
  | .hbm, ⟨30, _⟩ => ⟨S400000, .i1⟩
  | .hbm, ⟨31, _⟩ => ⟨S_, .i32⟩
  | .hbm, ⟨32, _⟩ => ⟨S400000, .i32⟩
  | .hbm, ⟨33, _⟩ => ⟨S400000, .i32⟩
  | .hbm, ⟨34, _⟩ => ⟨S400000, .i32⟩
  | .hbm, ⟨35, _⟩ => ⟨S400000x1, .i32⟩
  | .hbm, ⟨36, _⟩ => ⟨S400000x128, .f32⟩
  | .hbm, ⟨37, _⟩ => ⟨S400000x128, .f32⟩
  | .hbm, ⟨38, _⟩ => ⟨S400000x128, .f32⟩
  | .hbm, ⟨39, _⟩ => ⟨S400000x128, .f32⟩
  | .hbm, ⟨40, _⟩ => ⟨S400000x128, .f32⟩
  | .hbm, ⟨41, _⟩ => ⟨S400000x128, .f32⟩
  | .hbm, ⟨42, _⟩ => ⟨S400000x128, .f32⟩
  | .hbm, ⟨43, _⟩ => ⟨S400000x128, .f32⟩
  | .hbm, ⟨44, _⟩ => ⟨S400000x128, .f32⟩
  | .hbm, ⟨45, _⟩ => ⟨S400000x128, .f32⟩
  | .hbm, ⟨46, _⟩ => ⟨S_, .f32⟩
  | .hbm, ⟨47, _⟩ => ⟨S400000x128, .f32⟩
  | .hbm, ⟨48, _⟩ => ⟨S400000x128, .f32⟩
  | .hbm, ⟨49, _⟩ => ⟨S1x128, .f32⟩
  | .hbm, ⟨50, _⟩ => ⟨S400000x128, .f32⟩
  | .hbm, ⟨51, _⟩ => ⟨S400000x128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S400000x128, .f32⟩
  | .hbm, ⟨58, _⟩ => ⟨S400000x128, .f32⟩
  | .hbm, ⟨59, _⟩ => ⟨S1x128, .f32⟩
  | .hbm, ⟨60, _⟩ => ⟨S400000x128, .f32⟩
  | .hbm, ⟨61, _⟩ => ⟨S400000x128, .f32⟩
  | .hbm, ⟨62, _⟩ => ⟨S1x128, .f32⟩
  | .hbm, ⟨63, _⟩ => ⟨S400000x128, .f32⟩
  | .hbm, ⟨64, _⟩ => ⟨S400000x128, .f32⟩
  | .hbm, ⟨65, _⟩ => ⟨S1x384, .f32⟩
  | .hbm, ⟨66, _⟩ => ⟨S384, .f32⟩
  | .hbm, ⟨67, _⟩ => ⟨S1x384, .f32⟩
  | .hbm, ⟨68, _⟩ => ⟨S384, .f32⟩
  | .hbm, ⟨69, _⟩ => ⟨S400000x384, .f32⟩
  | .hbm, ⟨70, _⟩ => ⟨S1x384, .f32⟩
  | .hbm, ⟨71, _⟩ => ⟨S400000x384, .f32⟩
  | .hbm, ⟨72, _⟩ => ⟨S400000x384, .f32⟩
  | .hbm, ⟨73, _⟩ => ⟨S400000x384, .f32⟩
  | .hbm, ⟨74, _⟩ => ⟨S1x384, .f32⟩
  | .hbm, ⟨75, _⟩ => ⟨S400000x384, .f32⟩
  | .hbm, ⟨76, _⟩ => ⟨S400000x384, .f32⟩
  | .hbm, ⟨77, _⟩ => ⟨S400000x128, .f32⟩
  | .hbm, ⟨78, _⟩ => ⟨S400000x128, .f32⟩
  | .hbm, ⟨79, _⟩ => ⟨S400000x128, .f32⟩
  | .hbm, ⟨80, _⟩ => ⟨S400000x128, .f32⟩
  | .hbm, ⟨81, _⟩ => ⟨S400000x128, .f32⟩
  | .hbm, ⟨82, _⟩ => ⟨S400000x128, .f32⟩
  | .hbm, ⟨83, _⟩ => ⟨S400000x128, .f32⟩
  | .hbm, ⟨84, _⟩ => ⟨S400000x128, .f32⟩
  | .hbm, ⟨85, _⟩ => ⟨S400000x128, .f32⟩
  | .hbm, ⟨86, _⟩ => ⟨S_, .f32⟩
  | .hbm, ⟨87, _⟩ => ⟨S400000x128, .f32⟩
  | .hbm, ⟨88, _⟩ => ⟨S400000x128, .f32⟩
  | .hbm, ⟨89, _⟩ => ⟨S_, .f32⟩
  | .hbm, ⟨90, _⟩ => ⟨S400000x128, .f32⟩
  | .hbm, ⟨91, _⟩ => ⟨S400000x128, .f32⟩
  | .hbm, ⟨92, _⟩ => ⟨S400000x128, .f32⟩
  | .hbm, ⟨93, _⟩ => ⟨S400000x128, .f32⟩
  | .hbm, ⟨94, _⟩ => ⟨S400000x128, .f32⟩
  | .hbm, ⟨95, _⟩ => ⟨S_, .f32⟩
  | .hbm, ⟨96, _⟩ => ⟨S400000x128, .f32⟩
  | .hbm, ⟨97, _⟩ => ⟨S400000x128, .f32⟩
  | .hbm, ⟨98, _⟩ => ⟨S_, .f32⟩
  | .hbm, ⟨99, _⟩ => ⟨S400000x128, .f32⟩
  | .hbm, ⟨100, _⟩ => ⟨S400000x128, .f32⟩
  | .hbm, ⟨101, _⟩ => ⟨S400000x128, .f32⟩
  | .hbm, ⟨102, _⟩ => ⟨S400000x128, .f32⟩
  | .hbm, ⟨103, _⟩ => ⟨S400000x128, .f32⟩
  | .hbm, ⟨104, _⟩ => ⟨S400000x128, .f32⟩
  | .hbm, ⟨105, _⟩ => ⟨S_, .f32⟩
  | .hbm, ⟨106, _⟩ => ⟨S400000x128, .f32⟩
  | .hbm, ⟨107, _⟩ => ⟨S400000x128, .f32⟩
  | .hbm, ⟨108, _⟩ => ⟨S400000x128, .f32⟩
  | .hbm, ⟨109, _⟩ => ⟨S400000x128, .f32⟩
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_3 : Ref sig .tc := ⟨.hbm, 86, rfl⟩
abbrev main_v64 : Ref sig .tc := ⟨.hbm, 87, rfl⟩
abbrev main_v65 : Ref sig .tc := ⟨.hbm, 88, rfl⟩
abbrev main_cst_4 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_5 : Ref sig .tc := ⟨.hbm, 95, rfl⟩
abbrev main_v71 : Ref sig .tc := ⟨.hbm, 96, rfl⟩
abbrev main_v72 : Ref sig .tc := ⟨.hbm, 97, rfl⟩
abbrev main_cst_6 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_7 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩

abbrev nD : Nat := 1
abbrev τ : Topo := Topo.v7x

variable {F : FTy → Type} [FloatOps F]

class Facts₀ : Prop where
  slices_S400000x2_S400000x1_0_1 : S400000x2.Slices ![0, 1] S400000x1
  shapeCasts_S400000x1_S400000 : S400000x1.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S128_S1x128_1 : S128.BroadcastsInDim S1x128 (![1] : Fin 1 → Fin S1x128.rank)
  bcast_S_S128 : S_.BroadcastsInDim S128 (![] : Fin 0 → Fin S128.rank)
  slices_S2x384_S1x384_0_0 : S2x384.Slices ![0, 0] S1x384
  shapeCasts_S1x384_S384 : S1x384.ShapeCasts S384
  slices_S2x384_S1x384_1_0 : S2x384.Slices ![1, 0] S1x384
  bcast_S384_S1x384_1 : S384.BroadcastsInDim S1x384 (![1] : Fin 1 → Fin S1x384.rank)
  bcast_S1x384_S400000x384_0_1 : S1x384.BroadcastsInDim S400000x384 (![0, 1] : Fin 2 → Fin S400000x384.rank)
  slices_S400000x384_S400000x128_0_0 : S400000x384.Slices ![0, 0] S400000x128
  slices_S400000x384_S400000x128_0_128 : S400000x384.Slices ![0, 128] S400000x128
  slices_S400000x384_S400000x128_0_256 : S400000x384.Slices ![0, 256] S400000x128
  gather_S400000x128_S400000x1_S400000x128_1_0_n_n_0_1_1128_wf : GatherDims.WF S400000x128 S400000x1 S400000x128 [1] [0] [] [0] [] 1 ![1, 128]
  dot_S400000x128_S128x128_S400000x128_1_0_0_1_n_n_wf : DotDims.WF S400000x128 S128x128 S400000x128 [1] [0] [0] [1] [] []
  dot_S400000x128_S128x384_S400000x384_1_0_0_1_n_n_wf : DotDims.WF S400000x128 S128x384 S400000x384 [1] [0] [0] [1] [] []

variable [Facts₀]

def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x128_S128x384_S400000x384_1_0_0_1_n_n : DotDims S400000x128 S128x384 S400000x384 where
  lhsContracting := [1]
  rhsContracting := [0]
  lhsNonContracting := [0]
  rhsNonContracting := [1]
  lhsBatch := []
  rhsBatch := []
  wf := dot_S400000x128_S128x384_S400000x384_1_0_0_1_n_n_wf

class Facts : Prop extends Facts₀ where

variable [Facts]
-- ==== Proof.Cell.lean ====
/-
  The function both programs compute, one element at a time.

  A bond e has a "next" node row a, a "previous" node row b (both gathered from the node table) and its own feature row h,
  each of 128 entries. The layer forms two messages by dense maps with biases, adds them and applies relu; normalizes
  with running statistics (batch norm at inference: subtract the mean, scale by rsqrt(var + ε) and γ, shift by β); and
  feeds the normalized row u and the previous state h to a GRU cell with the reset gate applied after the recurrent
  product: with mx = u·K + b₀ and mh = h·R + b₁ (384 columns each, read as three blocks of 128),
  z = σ(mx₀ + mh₀), r = σ(mx₁ + mh₁), ĥ = tanh(mx₂ + r · mh₂) and the new state is z · h + (1 − z) · ĥ.

  Every sum here is a finite sum of extended reals over the 128 contracted coordinates; nothing below
  rearranges one, so no law of the extended reals beyond reading the operations is used and finiteness
  of the inputs plays no part.
-/
import Idealize.ShloMosaic.PureOps.Ideal
import Idealize.ShloMosaic.Lib.ValueIdx

noncomputable section

open scoped BigOperators

namespace Cert.BondGRU

open Idealize.ShloMosaic Idealize.ShloMosaic.ValueIdx

/-- Column f of the first, second and third block of 128 among 384 columns. -/
abbrev col0 (f : Fin 128) : Fin 384 := ⟨f.val, by have := f.isLt; omega⟩
abbrev col1 (f : Fin 128) : Fin 384 := ⟨128 + f.val, by have := f.isLt; omega⟩
abbrev col2 (f : Fin 128) : Fin 384 := ⟨256 + f.val, by have := f.isLt; omega⟩

/-- The two messages added, rectified, and centred by the running mean μ:
    max((Σₖ (aₖ + hₖ)·wNₖf + bN_f) + (Σₖ (bₖ + hₖ)·wPₖf + bP_f), 0) − μ_f. -/
def centred (a b h : Fin 128 → EReal) (wN wP : Fin 128 → Fin 128 → EReal) (bN bP mu : Fin 128 → EReal) (f : Fin 128) : EReal :=
  max (((∑ k : Fin 128, (a k + h k) * wN k f) + bN f) + ((∑ k : Fin 128, (b k + h k) * wP k f) + bP f))
      (Ideal.ofBits .f32 0x00000000#32) - mu f

/-- The centred value scaled and shifted: c_f · rsqrt(var_f + ε) · γ_f + β_f, ε the f32 nearest 1e-3. -/
def normed (c var gam bet : Fin 128 → EReal) (f : Fin 128) : EReal :=
  c f * Ideal.rsqrt (var f + Ideal.ofBits .f32 0x3A83126F#32) * gam f + bet f

/-- The input product of the GRU at column j: Σₖ uₖ·Kₖⱼ + b₀ⱼ. -/
def gateIn (u : Fin 128 → EReal) (K : Fin 128 → Fin 384 → EReal) (b0 : Fin 384 → EReal) (j : Fin 384) : EReal :=
  (∑ k : Fin 128, u k * K k j) + b0 j

/-- The update gate z, the reset gate r and the candidate state ĥ at feature f. -/
def zGate (u h : Fin 128 → EReal) (K R : Fin 128 → Fin 384 → EReal) (b0 b1 : Fin 384 → EReal) (f : Fin 128) : EReal :=
  Ideal.logistic (gateIn u K b0 (col0 f) + gateIn h R b1 (col0 f))
def rGate (u h : Fin 128 → EReal) (K R : Fin 128 → Fin 384 → EReal) (b0 b1 : Fin 384 → EReal) (f : Fin 128) : EReal :=
  Ideal.logistic (gateIn u K b0 (col1 f) + gateIn h R b1 (col1 f))
def cand (u h : Fin 128 → EReal) (K R : Fin 128 → Fin 384 → EReal) (b0 b1 : Fin 384 → EReal) (f : Fin 128) : EReal :=
  Ideal.tanh (gateIn u K b0 (col2 f) + rGate u h K R b0 b1 f * gateIn h R b1 (col2 f))

/-- The GRU's new state at feature f: z·h + (1 − z)·ĥ. -/
def gru (u h : Fin 128 → EReal) (K R : Fin 128 → Fin 384 → EReal) (b0 b1 : Fin 384 → EReal) (f : Fin 128) : EReal :=
  zGate u h K R b0 b1 f * h f + (1 - zGate u h K R b0 b1 f) * cand u h K R b0 b1 f

/-- The layer's output for one bond, from its three rows and the layer's parameters. -/
def cell (a b h : Fin 128 → EReal) (wN wP : Fin 128 → Fin 128 → EReal) (bN bP gam bet mu var : Fin 128 → EReal)
    (K R : Fin 128 → Fin 384 → EReal) (b0 b1 : Fin 384 → EReal) (f : Fin 128) : EReal :=
  gru (normed (centred a b h wN wP bN bP mu) var gam bet) h K R b0 b1 f

/-- The whole result array [400000, 128] from the gathered node rows nx, px, the bond features bx and the parameters
    as arrays of their printed shapes: entry (e, f) is `cell` of row e of each table. -/
def G (nx px bx : (⟨2, ![400000, 128]⟩ : Shape).Idx → EReal) (wN wP : (⟨2, ![128, 128]⟩ : Shape).Idx → EReal)
    (bN bP : (⟨2, ![1, 128]⟩ : Shape).Idx → EReal) (gam bet mu var : (⟨1, ![128]⟩ : Shape).Idx → EReal)
    (K R : (⟨2, ![128, 384]⟩ : Shape).Idx → EReal) (gb : (⟨2, ![2, 384]⟩ : Shape).Idx → EReal) :
    (⟨2, ![400000, 128]⟩ : Shape).Idx → EReal := fun i =>
  cell (fun k => nx (ix2 (i 0) k)) (fun k => px (ix2 (i 0) k)) (fun k => bx (ix2 (i 0) k))
    (fun k f => wN (ix2 k f)) (fun k f => wP (ix2 k f)) (fun f => bN (ix2 (0 : Fin 1) f)) (fun f => bP (ix2 (0 : Fin 1) f))
    (fun f => gam (ix1 f)) (fun f => bet (ix1 f)) (fun f => mu (ix1 f)) (fun f => var (ix1 f))
    (fun k j => K (ix2 k j)) (fun k j => R (ix2 k j)) (fun j => gb (ix2 (0 : Fin 2) j)) (fun j => gb (ix2 (1 : Fin 2) j)) (i 1)

end Cert.BondGRU

end
-- ==== Proof.KernelPayload.lean ====
/-
  The kernel's arithmetic at one element of a block.

  A grid point holds 1600 bonds. Its body stores, at row p and feature f of the block, a value that depends on row p of
  the three row blocks (next node, previous node, bond) and on the whole parameter blocks. Read at the ideal values:
  a change of float format is the identity, a matrix product into a zero accumulator is the sum over the 128
  contracted coordinates of the products, a broadcast of a [1, n] row reads its column, and a column slice of the
  [1600, 384] products reads a shifted column. So the stored value is `Cert.BondGRU.cell` of the three rows.
-/
import proofs.«164573_j5995774345719_1_alg».proof.Proof.Gen.KernelIdeal.Skeleton
import proofs.«164573_j5995774345719_1_alg».proof.Proof.Cell
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.BondGRU

/-! ## The two matrix products, read at an element -/

theorem lhsA_0 (i : S1600x128.Idx) (q : dot_S1600x128_S128x128_S1600x128_1_0_0_1_n_n.contr.Idx) :
    (dot_S1600x128_S128x128_S1600x128_1_0_0_1_n_n.lhsIdx i q 0).val = (i 0).val := by
  unfold DotDims.lhsIdx
  rw [dif_neg (show ¬(0 : Fin S1600x128.rank) ∈ dot_S1600x128_S128x128_S1600x128_1_0_0_1_n_n.lhsBatch by decide), dif_pos (show (0 : Fin S1600x128.rank) ∈ dot_S1600x128_S128x128_S1600x128_1_0_0_1_n_n.lhsNonContracting by decide)]
  rfl
theorem lhsA_1 (i : S1600x128.Idx) (q : dot_S1600x128_S128x128_S1600x128_1_0_0_1_n_n.contr.Idx) :
    (dot_S1600x128_S128x128_S1600x128_1_0_0_1_n_n.lhsIdx i q 1).val = (q ⟨0, by decide⟩).val :=
  dot_S1600x128_S128x128_S1600x128_1_0_0_1_n_n.lhsIdx_val_of_single rfl i q
theorem rhsA_0 (i : S1600x128.Idx) (q : dot_S1600x128_S128x128_S1600x128_1_0_0_1_n_n.contr.Idx) :
    (dot_S1600x128_S128x128_S1600x128_1_0_0_1_n_n.rhsIdx i q 0).val = (q ⟨0, by decide⟩).val :=
  dot_S1600x128_S128x128_S1600x128_1_0_0_1_n_n.rhsIdx_val_of_single rfl i q
theorem rhsA_1 (i : S1600x128.Idx) (q : dot_S1600x128_S128x128_S1600x128_1_0_0_1_n_n.contr.Idx) :
    (dot_S1600x128_S128x128_S1600x128_1_0_0_1_n_n.rhsIdx i q 1).val = (i 1).val := by
  unfold DotDims.rhsIdx
  rw [dif_neg (show ¬(1 : Fin S128x128.rank) ∈ dot_S1600x128_S128x128_S1600x128_1_0_0_1_n_n.rhsBatch by decide), dif_pos (show (1 : Fin S128x128.rank) ∈ dot_S1600x128_S128x128_S1600x128_1_0_0_1_n_n.rhsNonContracting by decide)]
  rfl

/-- A [1600,128] × [128,128] product into the zero accumulator, at (p, f): Σₖ l(p,k) · r(k,f). -/
theorem mmA_apply {φ₁ φ₂ : FTy} (l : FVec Ideal S1600x128 φ₁) (r : FVec Ideal S128x128 φ₂) (p : Fin 1600) (f : Fin 128) :
    matmul dot_S1600x128_S128x128_S1600x128_1_0_0_1_n_n none l r (constant S1600x128 .f32 0x00000000#32) (ix2 p f)
      = ∑ k : Fin 128, l (ix2 p k) * r (ix2 k f) := by
  simp only [matmul]
  rw [Ideal.matmul_constant_zero_apply, ← Equiv.sum_comp (ValueIdx.contrEquiv1 dot_S1600x128_S128x128_S1600x128_1_0_0_1_n_n 128 rfl rfl).symm]
  refine Finset.sum_congr rfl fun k _ => ?_
  have hk := ValueIdx.contrEquiv1_symm_val dot_S1600x128_S128x128_S1600x128_1_0_0_1_n_n 128 rfl rfl k
  have el : dot_S1600x128_S128x128_S1600x128_1_0_0_1_n_n.lhsIdx (ix2 p f) ((ValueIdx.contrEquiv1 dot_S1600x128_S128x128_S1600x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S1600x128_S128x128_S1600x128_1_0_0_1_n_n.rhsIdx (ix2 p f) ((ValueIdx.contrEquiv1 dot_S1600x128_S128x128_S1600x128_1_0_0_1_n_n 128 rfl rfl).symm k) = ix2 k f := funext fun a => Fin.ext (by
    match a with
    | ⟨0, _⟩ => exact (rhsA_0 _ _).trans hk
    | ⟨1, _⟩ => exact rhsA_1 _ _)
  rw [el, er]

theorem lhsB_0 (i : S1600x384.Idx) (q : dot_S1600x128_S128x384_S1600x384_1_0_0_1_n_n.contr.Idx) :
    (dot_S1600x128_S128x384_S1600x384_1_0_0_1_n_n.lhsIdx i q 0).val = (i 0).val := by
  unfold DotDims.lhsIdx
  rw [dif_neg (show ¬(0 : Fin S1600x128.rank) ∈ dot_S1600x128_S128x384_S1600x384_1_0_0_1_n_n.lhsBatch by decide), dif_pos (show (0 : Fin S1600x128.rank) ∈ dot_S1600x128_S128x384_S1600x384_1_0_0_1_n_n.lhsNonContracting by decide)]
  rfl
theorem lhsB_1 (i : S1600x384.Idx) (q : dot_S1600x128_S128x384_S1600x384_1_0_0_1_n_n.contr.Idx) :
    (dot_S1600x128_S128x384_S1600x384_1_0_0_1_n_n.lhsIdx i q 1).val = (q ⟨0, by decide⟩).val :=
  dot_S1600x128_S128x384_S1600x384_1_0_0_1_n_n.lhsIdx_val_of_single rfl i q
theorem rhsB_0 (i : S1600x384.Idx) (q : dot_S1600x128_S128x384_S1600x384_1_0_0_1_n_n.contr.Idx) :
    (dot_S1600x128_S128x384_S1600x384_1_0_0_1_n_n.rhsIdx i q 0).val = (q ⟨0, by decide⟩).val :=
  dot_S1600x128_S128x384_S1600x384_1_0_0_1_n_n.rhsIdx_val_of_single rfl i q
theorem rhsB_1 (i : S1600x384.Idx) (q : dot_S1600x128_S128x384_S1600x384_1_0_0_1_n_n.contr.Idx) :
    (dot_S1600x128_S128x384_S1600x384_1_0_0_1_n_n.rhsIdx i q 1).val = (i 1).val := by
  unfold DotDims.rhsIdx
  rw [dif_neg (show ¬(1 : Fin S128x384.rank) ∈ dot_S1600x128_S128x384_S1600x384_1_0_0_1_n_n.rhsBatch by decide), dif_pos (show (1 : Fin S128x384.rank) ∈ dot_S1600x128_S128x384_S1600x384_1_0_0_1_n_n.rhsNonContracting by decide)]
  rfl

/-- A [1600,128] × [128,384] product into the zero accumulator, at (p, j): Σₖ l(p,k) · r(k,j). -/
theorem mmB_apply {φ₁ φ₂ : FTy} (l : FVec Ideal S1600x128 φ₁) (r : FVec Ideal S128x384 φ₂) (p : Fin 1600) (j : Fin 384) :
    matmul dot_S1600x128_S128x384_S1600x384_1_0_0_1_n_n none l r (constant S1600x384 .f32 0x00000000#32) (ix2 p j)
      = ∑ k : Fin 128, l (ix2 p k) * r (ix2 k j) := by
  simp only [matmul]
  rw [Ideal.matmul_constant_zero_apply, ← Equiv.sum_comp (ValueIdx.contrEquiv1 dot_S1600x128_S128x384_S1600x384_1_0_0_1_n_n 128 rfl rfl).symm]
  refine Finset.sum_congr rfl fun k _ => ?_
  have hk := ValueIdx.contrEquiv1_symm_val dot_S1600x128_S128x384_S1600x384_1_0_0_1_n_n 128 rfl rfl k
  have el : dot_S1600x128_S128x384_S1600x384_1_0_0_1_n_n.lhsIdx (ix2 p j) ((ValueIdx.contrEquiv1 dot_S1600x128_S128x384_S1600x384_1_0_0_1_n_n 128 rfl rfl).symm k) = ix2 p k := funext fun a => Fin.ext (by
    match a with
    | ⟨0, _⟩ => exact lhsB_0 _ _
    | ⟨1, _⟩ => exact (lhsB_1 _ _).trans hk)
  have er : dot_S1600x128_S128x384_S1600x384_1_0_0_1_n_n.rhsIdx (ix2 p j) ((ValueIdx.contrEquiv1 dot_S1600x128_S128x384_S1600x384_1_0_0_1_n_n 128 rfl rfl).symm k) = ix2 k j := funext fun a => Fin.ext (by
    match a with
    | ⟨0, _⟩ => exact (rhsB_0 _ _).trans hk
    | ⟨1, _⟩ => exact rhsB_1 _ _)
  rw [el, er]

/-! ## Rows broadcast down a block, and column slices -/

/-- A [1,128] row broadcast to [1600,128] reads its column. -/
theorem rowA_apply {α : Type} (v : S1x128.Idx → α) (p : Fin 1600) (f : Fin 128) :
    broadcastTo S1600x128 v broadcasts_S1x128_S1600x128 (ix2 p f) = v (ix2 (0 : Fin 1) f) :=
  broadcastTo_apply v broadcasts_S1x128_S1600x128 (ix2 p f) (ix2 (0 : Fin 1) f) (fun a => match a with
    | ⟨0, _⟩ => by show 0 = if (1 : Nat) = 1 then 0 else p.val; rw [if_pos rfl]
    | ⟨1, _⟩ => by show f.val = if (128 : Nat) = 1 then 0 else f.val; rw [if_neg (by decide)])

/-- A [1,384] row broadcast to [1600,384] reads its column. -/
theorem rowB_apply {α : Type} (v : S1x384.Idx → α) (p : Fin 1600) (j : Fin 384) :
    broadcastTo S1600x384 v broadcasts_S1x384_S1600x384 (ix2 p j) = v (ix2 (0 : Fin 1) j) :=
  broadcastTo_apply v broadcasts_S1x384_S1600x384 (ix2 p j) (ix2 (0 : Fin 1) j) (fun a => match a with
    | ⟨0, _⟩ => by show 0 = if (1 : Nat) = 1 then 0 else p.val; rw [if_pos rfl]
    | ⟨1, _⟩ => by show j.val = if (384 : Nat) = 1 then 0 else j.val; rw [if_neg (by decide)])

/-- The three column blocks of a [1600,384] value. -/
theorem blk0_apply {α : Type} (v : S1600x384.Idx → α) (p : Fin 1600) (f : Fin 128) :
    extractStridedSlice S1600x128 ![0, 0] v slices_S1600x384_o0_0_S1600x128 (ix2 p f) = v (ix2 p (col0 f)) :=
  extractStridedSlice_apply ![0, 0] v slices_S1600x384_o0_0_S1600x128 (ix2 p f) (ix2 p (col0 f)) (fun a => match a with
    | ⟨0, _⟩ => by show p.val = 0 + p.val; omega
    | ⟨1, _⟩ => by show f.val = 0 + f.val; omega)
theorem blk1_apply {α : Type} (v : S1600x384.Idx → α) (p : Fin 1600) (f : Fin 128) :
    extractStridedSlice S1600x128 ![0, 128] v slices_S1600x384_o0_128_S1600x128 (ix2 p f) = v (ix2 p (col1 f)) :=
  extractStridedSlice_apply ![0, 128] v slices_S1600x384_o0_128_S1600x128 (ix2 p f) (ix2 p (col1 f)) (fun a => match a with
    | ⟨0, _⟩ => by show p.val = 0 + p.val; omega
    | ⟨1, _⟩ => by show 128 + f.val = 128 + f.val; rfl)
theorem blk2_apply {α : Type} (v : S1600x384.Idx → α) (p : Fin 1600) (f : Fin 128) :
    extractStridedSlice S1600x128 ![0, 256] v slices_S1600x384_o0_256_S1600x128 (ix2 p f) = v (ix2 p (col2 f)) :=
  extractStridedSlice_apply ![0, 256] v slices_S1600x384_o0_256_S1600x128 (ix2 p f) (ix2 p (col2 f)) (fun a => match a with
    | ⟨0, _⟩ => by show p.val = 0 + p.val; omega
    | ⟨1, _⟩ => by show 256 + f.val = 256 + f.val; rfl)

/-- The two rows of the [2,384] bias. -/
theorem bias0_apply {α : Type} (v : S2x384.Idx → α) (j : Fin 384) :
    extractStridedSlice S1x384 ![0, 0] v slices_S2x384_o0_0_S1x384 (ix2 (0 : Fin 1) j) = v (ix2 (0 : Fin 2) j) :=
  extractStridedSlice_apply ![0, 0] v slices_S2x384_o0_0_S1x384 (ix2 (0 : Fin 1) j) (ix2 (0 : Fin 2) j) (fun a => match a with
    | ⟨0, _⟩ => by show 0 = 0 + 0; rfl
    | ⟨1, _⟩ => by show j.val = 0 + j.val; omega)
theorem bias1_apply {α : Type} (v : S2x384.Idx → α) (j : Fin 384) :
    extractStridedSlice S1x384 ![1, 0] v slices_S2x384_o1_0_S1x384 (ix2 (0 : Fin 1) j) = v (ix2 (1 : Fin 2) j) :=
  extractStridedSlice_apply ![1, 0] v slices_S2x384_o1_0_S1x384 (ix2 (0 : Fin 1) j) (ix2 (1 : Fin 2) j) (fun a => match a with
    | ⟨0, _⟩ => by show 1 = 1 + 0; rfl
    | ⟨1, _⟩ => by show j.val = 0 + j.val; omega)

/-! ## The pointwise operations at an element (definitional at the ideal values) -/

theorem logistic_at {s : Shape} {φ : FTy} (a : FVec Ideal s φ) (i : s.Idx) :
    Idealize.ShloMosaic.logistic a i = Ideal.logistic (a i) := rfl
theorem tanh_at {s : Shape} {φ : FTy} (a : FVec Ideal s φ) (i : s.Idx) :
    Idealize.ShloMosaic.tanh a i = Ideal.tanh (a i) := rfl
theorem rsqrt_at {s : Shape} {φ : FTy} (a : FVec Ideal s φ) (i : s.Idx) :
    Idealize.ShloMosaic.rsqrt a i = Ideal.rsqrt (a i) := rfl
theorem scalarBits (φ : FTy) (b : BitVec φ.bits) : Scalar.ofBits (F := Ideal) φ b = Ideal.ofBits φ b := rfl

/-! ## The body's two stages -/

/-- The first stage (both messages, relu, minus the mean) at row p, feature f of the block. -/
theorem pay4_apply (x0 x1 x2 : Vec Ideal S1600x128 .f32) (x3 x4 : Vec Ideal S128x128 .f32) (x5 x6 x9 : Vec Ideal S1x128 .f32)
    (p : Fin 1600) (f : Fin 128) :
    k0_pay4 x0 x1 x2 x3 x4 x5 x6 x9 (ix2 p f)
      = centred (fun k => x0 (ix2 p k)) (fun k => x1 (ix2 p k)) (fun k => x2 (ix2 p k)) (fun k g => x3 (ix2 k g)) (fun k g => x4 (ix2 k g))
          (fun g => x5 (ix2 (0 : Fin 1) g)) (fun g => x6 (ix2 (0 : Fin 1) g)) (fun g => x9 (ix2 (0 : Fin 1) g)) f := by
  unfold k0_pay4 centred
  simp only [shapeCast_self]
  simp only [subf_apply, maximumf_apply, addf_apply, mmA_apply, rowA_apply, broadcast_apply, truncf_apply, scalarBits]

/-- The second stage (normalization, the two GRU products, the gates) at row p, feature f of the block, for any
    first-stage value c and any rows γ, β, var. -/
theorem pay5_apply (v4 : Vec Ideal S1600x128 .f32) (v25 v27 v31 : FVec Ideal S1x128 .f32) (c : FVec Ideal S1600x128 .f32)
    (v43 v45 : Vec Ideal S128x384 .f32) (v47 : Vec Ideal S2x384 .f32) (p : Fin 1600) (f : Fin 128) :
    k0_pay5 v4 v25 v27 v31 c v43 v45 v47 (ix2 p f)
      = gru (normed (fun k => c (ix2 p k)) (fun k => v31 (ix2 (0 : Fin 1) k)) (fun k => v25 (ix2 (0 : Fin 1) k)) (fun k => v27 (ix2 (0 : Fin 1) k)))
          (fun k => v4 (ix2 p k)) (fun k j => v43 (ix2 k j)) (fun k j => v45 (ix2 k j))
          (fun j => v47 (ix2 (0 : Fin 2) j)) (fun j => v47 (ix2 (1 : Fin 2) j)) f := by
  unfold k0_pay5 gru zGate cand rGate gateIn normed
  simp only [shapeCast_shapeCast]
  simp only [subf_apply, addf_apply, mulf_apply, logistic_at, tanh_at, rsqrt_at, blk0_apply, blk1_apply, blk2_apply, mmB_apply, rowB_apply,
    rowA_apply, bias0_apply, bias1_apply, broadcast_apply, truncf_apply, scalarBits, Ideal.ofBits_one_f32]

/-- What the body stores at row p, feature f of the output block: `cell` of row p of the three row blocks. -/
theorem stored_apply (x0 x1 x2 : Vec Ideal S1600x128 .f32) (x3 x4 : Vec Ideal S128x128 .f32) (x5 x6 x7 x8 x9 x10 : Vec Ideal S1x128 .f32)
    (x11 x12 : Vec Ideal S128x384 .f32) (x13 : Vec Ideal S2x384 .f32) (p : Fin 1600) (f : Fin 128) :
    k0_pay5 x2 (k0_pay1 x7) (k0_pay2 x8) (k0_pay3 x10) (k0_pay4 x0 x1 x2 x3 x4 x5 x6 x9) x11 x12 x13 (ix2 p f)
      = cell (fun k => x0 (ix2 p k)) (fun k => x1 (ix2 p k)) (fun k => x2 (ix2 p k)) (fun k g => x3 (ix2 k g)) (fun k g => x4 (ix2 k g))
          (fun g => x5 (ix2 (0 : Fin 1) g)) (fun g => x6 (ix2 (0 : Fin 1) g)) (fun g => x7 (ix2 (0 : Fin 1) g)) (fun g => x8 (ix2 (0 : Fin 1) g))
          (fun g => x9 (ix2 (0 : Fin 1) g)) (fun g => x10 (ix2 (0 : Fin 1) g)) (fun k j => x11 (ix2 k j)) (fun k j => x12 (ix2 k j))
          (fun j => x13 (ix2 (0 : Fin 2) j)) (fun j => x13 (ix2 (1 : Fin 2) j)) f := by
  rw [pay5_apply]
  unfold cell k0_pay1 k0_pay2 k0_pay3
  simp only [shapeCast_self, pay4_apply]

end Cert.KernelIdeal.Payload

end
-- ==== Proof.KernelValue.lean ====
/-
  From blocks to the array: what the kernel's result array holds after the run.

  Grid point t (of 250) stages rows 1600·t … 1600·t + 1599 of the three row tables and the whole of every parameter
  array, and writes back rows 1600·t … of the result. Row p of a staged block is row 1600·t + p of its array, so what
  point t writes back is the block of one whole-array function; the 250 blocks tile the 400000 rows, so the array ends
  holding that function. The four batch-norm rows are staged from [1,128] reshapes of the [128] arguments, made by the
  host before the call.
-/
import proofs.«164573_j5995774345719_1_alg».proof.Proof.Gen.KernelIdeal.Value
import proofs.«164573_j5995774345719_1_alg».proof.Proof.KernelPayload
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Cert.KernelIdeal.Payload Cert.BondGRU
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 250 points -/

/-- The three row tables and the result move one block of rows per point and stay at column block 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_14.index t (0 : Fin 2) = t.val ∧ win0_14.index t (1 : Fin 2) = 0 :=
  (by decide +kernel : ∀ t : Fin grid0.N, _)

/-- Every parameter window stays at block (0, 0). -/
theorem idx_params : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-- Row p of point t's block is row 1600·t + p of the table. -/
def row (t : Fin cfg0.N) (p : Fin 1600) : Fin 400000 :=
  ⟨t.val * 1600 + p.val, by have ht : t.val < cfg0.N := t.isLt; have hN : cfg0.N = 250 := N_0; have hp := p.isLt; omega⟩

/-! ## Each staged block, read at an element, is its array at an element -/

theorem read0 (c : Dev nD) (t : Fin cfg0.N) (p : Fin 1600) (k : Fin 128) :
    (iblk m c 0 t : Vec Ideal S1600x128 .f32) (ix2 p k) = (V m c main_v8 : S400000x128.Idx → EReal) (ix2 (row t p) k) := by
  obtain ⟨h0, h1, -⟩ := idx_rows t
  unfold iblk
  rw [View.read_apply]
  show V m c main_v8 _ = V m c main_v8 _
  congr 1
  funext a
  apply Fin.ext
  match a with
  | ⟨0, _⟩ => show win0_0.index t (0 : Fin 2) * 1600 + 1 * p.val = t.val * 1600 + p.val; rw [h0]; omega
  | ⟨1, _⟩ => show win0_0.index t (1 : Fin 2) * 128 + 1 * k.val = k.val; rw [h1]; omega

theorem read1 (c : Dev nD) (t : Fin cfg0.N) (p : Fin 1600) (k : Fin 128) :
    (iblk m c 1 t : Vec Ideal S1600x128 .f32) (ix2 p k) = (V m c main_v17 : S400000x128.Idx → EReal) (ix2 (row t p) k) := by
  obtain ⟨-, -, h0, h1, -⟩ := idx_rows t
  unfold iblk
  rw [View.read_apply]
  show V m c main_v17 _ = V m c main_v17 _
  congr 1
  funext a
  apply Fin.ext
  match a with
  | ⟨0, _⟩ => show win0_1.index t (0 : Fin 2) * 1600 + 1 * p.val = t.val * 1600 + p.val; rw [h0]; omega
  | ⟨1, _⟩ => show win0_1.index t (1 : Fin 2) * 128 + 1 * k.val = k.val; rw [h1]; omega

theorem read2 (c : Dev nD) (t : Fin cfg0.N) (p : Fin 1600) (k : Fin 128) :
    (iblk m c 2 t : Vec Ideal S1600x128 .f32) (ix2 p k) = (V m c main_arg1 : S400000x128.Idx → EReal) (ix2 (row t p) k) := by
  obtain ⟨-, -, -, -, h0, h1, -⟩ := idx_rows t
  unfold iblk
  rw [View.read_apply]
  show V m c main_arg1 _ = V m c main_arg1 _
  congr 1
  funext a
  apply Fin.ext
  match a with
  | ⟨0, _⟩ => show win0_2.index t (0 : Fin 2) * 1600 + 1 * p.val = t.val * 1600 + p.val; rw [h0]; omega
  | ⟨1, _⟩ => show win0_2.index t (1 : Fin 2) * 128 + 1 * k.val = k.val; rw [h1]; omega

theorem read3 (c : Dev nD) (t : Fin cfg0.N) (y : S128x128.Idx) :
    (iblk m c 3 t : Vec Ideal S128x128 .f32) y = (V m c main_arg4 : S128x128.Idx → EReal) y := by
  obtain ⟨⟨h0, h1⟩, -⟩ := idx_params t
  unfold iblk
  rw [View.read_apply]
  show V m c main_arg4 _ = V m c main_arg4 _
  congr 1
  funext a
  apply Fin.ext
  match a with
  | ⟨0, _⟩ => show win0_3.index t (0 : Fin 2) * 128 + 1 * (y 0).val = (y 0).val; rw [h0]; omega
  | ⟨1, _⟩ => show win0_3.index t (1 : Fin 2) * 128 + 1 * (y 1).val = (y 1).val; rw [h1]; omega

theorem read4 (c : Dev nD) (t : Fin cfg0.N) (y : S128x128.Idx) :
    (iblk m c 4 t : Vec Ideal S128x128 .f32) y = (V m c main_arg5 : S128x128.Idx → EReal) y := by
  obtain ⟨-, ⟨h0, h1⟩, -⟩ := idx_params t
  unfold iblk
  rw [View.read_apply]
  show V m c main_arg5 _ = V m c main_arg5 _
  congr 1
  funext a
  apply Fin.ext
  match a with
  | ⟨0, _⟩ => show win0_4.index t (0 : Fin 2) * 128 + 1 * (y 0).val = (y 0).val; rw [h0]; omega
  | ⟨1, _⟩ => show win0_4.index t (1 : Fin 2) * 128 + 1 * (y 1).val = (y 1).val; rw [h1]; omega

theorem read5 (c : Dev nD) (t : Fin cfg0.N) (y : S1x128.Idx) :
    (iblk m c 5 t : Vec Ideal S1x128 .f32) y = (V m c main_arg6 : S1x128.Idx → EReal) y := by
  obtain ⟨-, -, ⟨h0, h1⟩, -⟩ := idx_params t
  unfold iblk
  rw [View.read_apply]
  show V m c main_arg6 _ = V m c main_arg6 _
  congr 1
  funext a
  apply Fin.ext
  match a with
  | ⟨0, _⟩ => show win0_5.index t (0 : Fin 2) * 1 + 1 * (y 0).val = (y 0).val; rw [h0]; omega
  | ⟨1, _⟩ => show win0_5.index t (1 : Fin 2) * 128 + 1 * (y 1).val = (y 1).val; rw [h1]; omega

theorem read6 (c : Dev nD) (t : Fin cfg0.N) (y : S1x128.Idx) :
    (iblk m c 6 t : Vec Ideal S1x128 .f32) y = (V m c main_arg7 : S1x128.Idx → EReal) y := by
  obtain ⟨-, -, -, ⟨h0, h1⟩, -⟩ := idx_params t
  unfold iblk
  rw [View.read_apply]
  show V m c main_arg7 _ = V m c main_arg7 _
  congr 1
  funext a
  apply Fin.ext
  match a with
  | ⟨0, _⟩ => show win0_6.index t (0 : Fin 2) * 1 + 1 * (y 0).val = (y 0).val; rw [h0]; omega
  | ⟨1, _⟩ => show win0_6.index t (1 : Fin 2) * 128 + 1 * (y 1).val = (y 1).val; rw [h1]; omega

theorem read7 (c : Dev nD) (t : Fin cfg0.N) (y : S1x128.Idx) :
    (iblk m c 7 t : Vec Ideal S1x128 .f32) y = (V m c main_v18 : S1x128.Idx → EReal) y := by
  obtain ⟨-, -, -, -, ⟨h0, h1⟩, -⟩ := idx_params t
  unfold iblk
  rw [View.read_apply]
  show V m c main_v18 _ = V m c main_v18 _
  congr 1
  funext a
  apply Fin.ext
  match a with
  | ⟨0, _⟩ => show win0_7.index t (0 : Fin 2) * 1 + 1 * (y 0).val = (y 0).val; rw [h0]; omega
  | ⟨1, _⟩ => show win0_7.index t (1 : Fin 2) * 128 + 1 * (y 1).val = (y 1).val; rw [h1]; omega

theorem read8 (c : Dev nD) (t : Fin cfg0.N) (y : S1x128.Idx) :
    (iblk m c 8 t : Vec Ideal S1x128 .f32) y = (V m c main_v19 : S1x128.Idx → EReal) y := by
  obtain ⟨-, -, -, -, -, ⟨h0, h1⟩, -⟩ := idx_params t
  unfold iblk
  rw [View.read_apply]
  show V m c main_v19 _ = V m c main_v19 _
  congr 1
  funext a
  apply Fin.ext
  match a with
  | ⟨0, _⟩ => show win0_8.index t (0 : Fin 2) * 1 + 1 * (y 0).val = (y 0).val; rw [h0]; omega
  | ⟨1, _⟩ => show win0_8.index t (1 : Fin 2) * 128 + 1 * (y 1).val = (y 1).val; rw [h1]; omega

theorem read9 (c : Dev nD) (t : Fin cfg0.N) (y : S1x128.Idx) :
    (iblk m c 9 t : Vec Ideal S1x128 .f32) y = (V m c main_v20 : S1x128.Idx → EReal) y := by
  obtain ⟨-, -, -, -, -, -, ⟨h0, h1⟩, -⟩ := idx_params t
  unfold iblk
  rw [View.read_apply]
  show V m c main_v20 _ = V m c main_v20 _
  congr 1
  funext a
  apply Fin.ext
  match a with
  | ⟨0, _⟩ => show win0_9.index t (0 : Fin 2) * 1 + 1 * (y 0).val = (y 0).val; rw [h0]; omega
  | ⟨1, _⟩ => show win0_9.index t (1 : Fin 2) * 128 + 1 * (y 1).val = (y 1).val; rw [h1]; omega

theorem read10 (c : Dev nD) (t : Fin cfg0.N) (y : S1x128.Idx) :
    (iblk m c 10 t : Vec Ideal S1x128 .f32) y = (V m c main_v21 : S1x128.Idx → EReal) y := by
  obtain ⟨-, -, -, -, -, -, -, ⟨h0, h1⟩, -⟩ := idx_params t
  unfold iblk
  rw [View.read_apply]
  show V m c main_v21 _ = V m c main_v21 _
  congr 1
  funext a
  apply Fin.ext
  match a with
  | ⟨0, _⟩ => show win0_10.index t (0 : Fin 2) * 1 + 1 * (y 0).val = (y 0).val; rw [h0]; omega
  | ⟨1, _⟩ => show win0_10.index t (1 : Fin 2) * 128 + 1 * (y 1).val = (y 1).val; rw [h1]; omega

theorem read11 (c : Dev nD) (t : Fin cfg0.N) (y : S128x384.Idx) :
    (iblk m c 11 t : Vec Ideal S128x384 .f32) y = (V m c main_arg12 : S128x384.Idx → EReal) y := by
  obtain ⟨-, -, -, -, -, -, -, -, ⟨h0, h1⟩, -⟩ := idx_params t
  unfold iblk
  rw [View.read_apply]
  show V m c main_arg12 _ = V m c main_arg12 _
  congr 1
  funext a
  apply Fin.ext
  match a with
  | ⟨0, _⟩ => show win0_11.index t (0 : Fin 2) * 128 + 1 * (y 0).val = (y 0).val; rw [h0]; omega
  | ⟨1, _⟩ => show win0_11.index t (1 : Fin 2) * 384 + 1 * (y 1).val = (y 1).val; rw [h1]; omega

theorem read12 (c : Dev nD) (t : Fin cfg0.N) (y : S128x384.Idx) :
    (iblk m c 12 t : Vec Ideal S128x384 .f32) y = (V m c main_arg13 : S128x384.Idx → EReal) y := by
  obtain ⟨-, -, -, -, -, -, -, -, -, ⟨h0, h1⟩, -⟩ := idx_params t
  unfold iblk
  rw [View.read_apply]
  show V m c main_arg13 _ = V m c main_arg13 _
  congr 1
  funext a
  apply Fin.ext
  match a with
  | ⟨0, _⟩ => show win0_12.index t (0 : Fin 2) * 128 + 1 * (y 0).val = (y 0).val; rw [h0]; omega
  | ⟨1, _⟩ => show win0_12.index t (1 : Fin 2) * 384 + 1 * (y 1).val = (y 1).val; rw [h1]; omega

theorem read13 (c : Dev nD) (t : Fin cfg0.N) (y : S2x384.Idx) :
    (iblk m c 13 t : Vec Ideal S2x384 .f32) y = (V m c main_arg14 : S2x384.Idx → EReal) y := by
  obtain ⟨-, -, -, -, -, -, -, -, -, -, h0, h1⟩ := idx_params t
  unfold iblk
  rw [View.read_apply]
  show V m c main_arg14 _ = V m c main_arg14 _
  congr 1
  funext a
  apply Fin.ext
  match a with
  | ⟨0, _⟩ => show win0_13.index t (0 : Fin 2) * 2 + 1 * (y 0).val = (y 0).val; rw [h0]; omega
  | ⟨1, _⟩ => show win0_13.index t (1 : Fin 2) * 384 + 1 * (y 1).val = (y 1).val; rw [h1]; omega

/-! ## The four [1,128] rows the host reshapes before the call -/

/-- Entry (0, g) of the reshape of a [128] array to [1,128] is its entry g. -/
theorem reshape_row {α : Type} (x : S128.Idx → α) (g : Fin 128) :
    shapeCast S1x128 x shapeCasts_S128_S1x128 (ix2 (0 : Fin 1) g) = x (ix1 g) :=
  shapeCast_apply x shapeCasts_S128_S1x128 (ix2 (0 : Fin 1) g) (ix1 g)
    (by rewrite [Shape.rowMajor_val_one, Shape.rowMajor_val_two]; show g.val = 0 * 128 + g.val; omega)

theorem V_gamma (c : Dev nD) : (V m c main_v18 : S1x128.Idx → EReal) = shapeCast S1x128 (m ((c : Thread nD τ).loc main_arg8)) shapeCasts_S128_S1x128 := by
  dsimp only [Gen.V, Gen.hostOps0]; after_results; rfl
theorem V_beta (c : Dev nD) : (V m c main_v19 : S1x128.Idx → EReal) = shapeCast S1x128 (m ((c : Thread nD τ).loc main_arg9)) shapeCasts_S128_S1x128 := by
  dsimp only [Gen.V, Gen.hostOps0]; after_results; rfl
theorem V_mean (c : Dev nD) : (V m c main_v20 : S1x128.Idx → EReal) = shapeCast S1x128 (m ((c : Thread nD τ).loc main_arg10)) shapeCasts_S128_S1x128 := by
  dsimp only [Gen.V, Gen.hostOps0]; after_results; rfl
theorem V_var (c : Dev nD) : (V m c main_v21 : S1x128.Idx → EReal) = shapeCast S1x128 (m ((c : Thread nD τ).loc main_arg11)) shapeCasts_S128_S1x128 := by
  dsimp only [Gen.V, Gen.hostOps0]; after_results; rfl

/-! ## What point t writes back, the cover, and the run -/

/-- The result array: `G` of the two gathered tables as the call finds them and of the arguments. -/
def result (c : Dev nD) : S400000x128.Idx → EReal :=
  G (V m c main_v8) (V m c main_v17) (m ((c : Thread nD τ).loc main_arg1)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13))
    (m ((c : Thread nD τ).loc main_arg14))

/-- Point t writes back rows 1600·t … 1600·t + 1599 of `result`. -/
theorem flushed_eq (c : Dev nD) (t : Fin cfg0.N) :
    (dats m 0 c).flushed 14 t = ((cfg0.win 14).blk t).view.read (Elt Ideal) (result m c) := by
  rw [Value.flushed14]
  unfold out0_14
  rw [View.canon_unit_zero hz]
  simp only [View.ld_unit_zero (S := S1600x128) hz, View.ld_unit_zero (S := S128x128) hz, View.ld_unit_zero (S := S1x128) hz,
    View.ld_unit_zero (S := S128x384) hz, View.ld_unit_zero (S := S2x384) hz]
  funext y
  obtain ⟨p, q, rfl⟩ : ∃ (p : Fin 1600) (q : Fin 128), y = ix2 p q := ⟨y 0, y 1, eq_ix2 y⟩
  obtain ⟨-, -, -, -, -, -, h0, h1⟩ := idx_rows t
  have he : ((cfg0.win 14).blk t).view.emb (ix2 p q) = (ix2 (row t p) q : S400000x128.Idx) := by
    funext a
    apply Fin.ext
    match a with
    | ⟨0, _⟩ => show win0_14.index t (0 : Fin 2) * 1600 + 1 * p.val = t.val * 1600 + p.val; rw [h0]; omega
    | ⟨1, _⟩ => show win0_14.index t (1 : Fin 2) * 128 + 1 * q.val = q.val; rw [h1]; omega
  show k0_pay5 (iblk m c 2 t) (k0_pay1 (iblk m c 7 t)) (k0_pay2 (iblk m c 8 t)) (k0_pay3 (iblk m c 10 t))
      (k0_pay4 (iblk m c 0 t) (iblk m c 1 t) (iblk m c 2 t) (iblk m c 3 t) (iblk m c 4 t) (iblk m c 5 t) (iblk m c 6 t) (iblk m c 9 t))
      (iblk m c 11 t) (iblk m c 12 t) (iblk m c 13 t) (ix2 p q)
    = result m c (((cfg0.win 14).blk t).view.emb (ix2 p q))
  rw [stored_apply, he]
  unfold result G
  simp only [read0, read1, read2, read3, read4, read5, read6, read7, read8, read9, read10, read11, read12, read13]
  rw [V_main_arg1 m c, V_main_arg4 m c, V_main_arg5 m c, V_main_arg6 m c, V_main_arg7 m c, V_main_arg12 m c, V_main_arg13 m c,
    V_main_arg14 m c, V_gamma m c, V_beta m c, V_mean m c, V_var m c]
  simp only [reshape_row]

/-- Every row of the result lies in some point's block: row r in point r / 1600's. -/
theorem cover (i : S400000x128.Idx) : ∃ t : Fin cfg0.N, (cfg0.win 14).flush t = true ∧ i ∈ ((cfg0.win 14).blk t).view.set := by
  have hi0 : (i 0).val < 400000 := (i 0).isLt
  have hi1 : (i 1).val < 128 := (i 1).isLt
  have hN : cfg0.N = 250 := N_0
  let t : Fin cfg0.N := ⟨(i 0).val / 1600, by rw [hN]; omega⟩
  obtain ⟨-, -, -, -, -, -, h0, h1⟩ := idx_rows t
  refine ⟨t, flush0_14 t, ?_⟩
  show i ∈ ((View.whole main_v22).slice (win0_14.rect t)).set
  rw [View.set_slice_whole, Rect.mem_set_unit]
  intro a
  match a with
  | ⟨0, _⟩ =>
    show win0_14.index t (0 : Fin 2) * 1600 ≤ (i 0).val ∧ (i 0).val < win0_14.index t (0 : Fin 2) * 1600 + 1600
    rw [h0]; show (i 0).val / 1600 * 1600 ≤ (i 0).val ∧ (i 0).val < (i 0).val / 1600 * 1600 + 1600; omega
  | ⟨1, _⟩ =>
    show win0_14.index t (1 : Fin 2) * 128 ≤ (i 1).val ∧ (i 1).val < win0_14.index t (1 : Fin 2) * 128 + 128
    rw [h1]; omega

/-- So the result array ends holding `result`. -/
theorem final (c : Dev nD) : (dats m 0 c).arrAt 14 cfg0.N = result m c :=
  (dats m 0 c).arrAt_eq_of_cover 14 (result m c) (fun t _ => flushed_eq m c t) cover

/-- The kernel's run, read: the result array at `result`, every argument unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1.trans (final m c), (h c).2⟩) (Value.run_blocks m ρ)

end Cert.KernelIdeal.Blocks

end
-- ==== Proof.RefValue.lean ====
/-
  The reference, read one element at a time.

  The reference computes on whole [400000, ·] arrays with host operations; its value at bond e and feature f depends
  on row e of the two gathered tables and of the bond features, and on the parameters. Each host operation is read at
  an index (a broadcast reads its row or its scalar, a column slice a shifted column, a matrix product the sum over the
  128 contracted coordinates), and jax's spelling of the logistic function, 1 / (1 + exp(−x)), is the ideal
  instance's logistic. So the reference's result is `Cert.BondGRU.G` of the gathered tables and the arguments.
-/
import proofs.«164573_j5995774345719_1_alg».proof.Proof.Gen.ReferenceIdeal.Read
import proofs.«164573_j5995774345719_1_alg».proof.Proof.Cell
import Idealize.ShloMosaic.Lib.ValueIdx
import Idealize.ShloMosaic.Lib.IdealHost

noncomputable section

open scoped BigOperators

namespace Cert.ReferenceIdeal.Rows

open Cert.ReferenceIdeal Cert.ReferenceIdeal.Read Idealize.ShloMosaic Idealize.ShloMosaic.ValueIdx Cert.BondGRU

variable (x0 x1 : (⟨S400000x128, .f32⟩ : BufTy).Contents (Elt Ideal)) (x2 x3 : (⟨S400000x2, .i32⟩ : BufTy).Contents (Elt Ideal))
  (x4 x5 : (⟨S128x128, .f32⟩ : BufTy).Contents (Elt Ideal)) (x6 x7 : (⟨S1x128, .f32⟩ : BufTy).Contents (Elt Ideal))
  (x8 x9 x10 x11 : (⟨S128, .f32⟩ : BufTy).Contents (Elt Ideal)) (x12 x13 : (⟨S128x384, .f32⟩ : BufTy).Contents (Elt Ideal))
  (x14 : (⟨S2x384, .f32⟩ : BufTy).Contents (Elt Ideal))

/-! ## Broadcast rows and scalars -/

/-- A [1,128] bias broadcast down the rows reads its column. -/
theorem bN_read (e : Fin 400000) (f : Fin 128) : val_main_v20 (F := Ideal) x6 (ix2 e f) = x6 (ix2 (0 : Fin 1) f) := by
  rw [val_main_v20_apply]
  exact congrArg x6 (funext fun a => match a with | ⟨0, _⟩ => rfl | ⟨1, _⟩ => rfl)
theorem bP_read (e : Fin 400000) (f : Fin 128) : val_main_v24 (F := Ideal) x7 (ix2 e f) = x7 (ix2 (0 : Fin 1) f) := by
  rw [val_main_v24_apply]
  exact congrArg x7 (funext fun a => match a with | ⟨0, _⟩ => rfl | ⟨1, _⟩ => rfl)

/-- A [128] parameter broadcast to [1,128] and then down the rows reads its entry. -/
theorem mean_read (e : Fin 400000) (f : Fin 128) : val_main_v29 (F := Ideal) x10 (ix2 e f) = x10 (ix1 f) := by
  rw [val_main_v29_apply, val_main_v28_apply]
  exact congrArg x10 (funext fun a => match a with | ⟨0, _⟩ => rfl)
theorem gamma_read (e : Fin 400000) (f : Fin 128) : val_main_v38 (F := Ideal) x8 (ix2 e f) = x8 (ix1 f) := by
  rw [val_main_v38_apply, val_main_v37_apply]
  exact congrArg x8 (funext fun a => match a with | ⟨0, _⟩ => rfl)
theorem beta_read (e : Fin 400000) (f : Fin 128) : val_main_v41 (F := Ideal) x9 (ix2 e f) = x9 (ix1 f) := by
  rw [val_main_v41_apply, val_main_v40_apply]
  exact congrArg x9 (funext fun a => match a with | ⟨0, _⟩ => rfl)

/-- The scale rsqrt(var + ε), computed on [128] and broadcast, reads rsqrt(var_f + ε). -/
theorem scale_read (e : Fin 400000) (f : Fin 128) :
    val_main_v35 (F := Ideal) x11 (ix2 e f) = Ideal.rsqrt (x11 (ix1 f) + Ideal.ofBits .f32 0x3A83126F#32) := by
  rw [val_main_v35_apply, val_main_v34_apply, val_main_v33_apply, val_main_v32_apply, val_main_v31_apply, val_main_cst_apply]
  show Ideal.rsqrt (x11 _ + Ideal.ofBits .f32 0x3A83126F#32) = _
  exact congrArg (fun i => Ideal.rsqrt (x11 i + Ideal.ofBits .f32 0x3A83126F#32)) (funext fun a => match a with | ⟨0, _⟩ => rfl)

/-- The zero the relu compares with, and the four ones of the two logistic expansions and of 1 − z. -/
theorem zero_read (i : S400000x128.Idx) : val_main_call0_v0 (F := Ideal) i = Ideal.ofBits .f32 0x00000000#32 := by
  rw [val_main_call0_v0_apply, val_main_call0_cst_apply]; rfl
theorem one64 (i : S400000x128.Idx) : val_main_v64 (F := Ideal) i = 1 := by
  rw [val_main_v64_apply, val_main_cst_3_apply]; exact Ideal.ofBits_one_f32
theorem one66 (i : S400000x128.Idx) : val_main_v66 (F := Ideal) i = 1 := by
  rw [val_main_v66_apply, val_main_cst_4_apply]; exact Ideal.ofBits_one_f32
theorem one71 (i : S400000x128.Idx) : val_main_v71 (F := Ideal) i = 1 := by
  rw [val_main_v71_apply, val_main_cst_5_apply]; exact Ideal.ofBits_one_f32
theorem one73 (i : S400000x128.Idx) : val_main_v73 (F := Ideal) i = 1 := by
  rw [val_main_v73_apply, val_main_cst_6_apply]; exact Ideal.ofBits_one_f32
theorem one79 (i : S400000x128.Idx) : val_main_v79 (F := Ideal) i = 1 := by
  rw [val_main_v79_apply, val_main_cst_7_apply]; exact Ideal.ofBits_one_f32

/-- The two rows of the [2,384] GRU bias, sliced, flattened, restored and broadcast down the rows. -/
theorem bias0_read (e : Fin 400000) (j : Fin 384) : val_main_v49 (F := Ideal) x14 (ix2 e j) = x14 (ix2 (0 : Fin 2) j) := by
  rw [val_main_v49_apply, val_main_v48_apply, val_main_v44_apply, val_main_v43_apply]
  exact congrArg x14 (funext fun a => match a with
    | ⟨0, _⟩ => rfl
    | ⟨1, _⟩ => Fin.ext (Nat.mod_eq_of_lt j.isLt))
theorem bias1_read (e : Fin 400000) (j : Fin 384) : val_main_v53 (F := Ideal) x14 (ix2 e j) = x14 (ix2 (1 : Fin 2) j) := by
  rw [val_main_v53_apply, val_main_v52_apply, val_main_v46_apply, val_main_v45_apply]
  exact congrArg x14 (funext fun a => match a with
    | ⟨0, _⟩ => rfl
    | ⟨1, _⟩ => Fin.ext (Nat.mod_eq_of_lt j.isLt))

/-! ## The operands of the four products, and the column slices, at coordinates -/

theorem l19 (e : Fin 400000) (f k : Fin 128) : lidx_main_v19 (ix2 e f) k = ix2 e k :=
  funext fun a => match a with | ⟨0, _⟩ => rfl | ⟨1, _⟩ => rfl
theorem r19 (e : Fin 400000) (f k : Fin 128) : ridx_main_v19 (ix2 e f) k = ix2 k f :=
  funext fun a => match a with | ⟨0, _⟩ => rfl | ⟨1, _⟩ => rfl
theorem l23 (e : Fin 400000) (f k : Fin 128) : lidx_main_v23 (ix2 e f) k = ix2 e k :=
  funext fun a => match a with | ⟨0, _⟩ => rfl | ⟨1, _⟩ => rfl
theorem r23 (e : Fin 400000) (f k : Fin 128) : ridx_main_v23 (ix2 e f) k = ix2 k f :=
  funext fun a => match a with | ⟨0, _⟩ => rfl | ⟨1, _⟩ => rfl
theorem l47 (e : Fin 400000) (j : Fin 384) (k : Fin 128) : lidx_main_v47 (ix2 e j) k = ix2 e k :=
  funext fun a => match a with | ⟨0, _⟩ => rfl | ⟨1, _⟩ => rfl
theorem r47 (e : Fin 400000) (j : Fin 384) (k : Fin 128) : ridx_main_v47 (ix2 e j) k = ix2 k j :=
  funext fun a => match a with | ⟨0, _⟩ => rfl | ⟨1, _⟩ => rfl
theorem l51 (e : Fin 400000) (j : Fin 384) (k : Fin 128) : lidx_main_v51 (ix2 e j) k = ix2 e k :=
  funext fun a => match a with | ⟨0, _⟩ => rfl | ⟨1, _⟩ => rfl
theorem r51 (e : Fin 400000) (j : Fin 384) (k : Fin 128) : ridx_main_v51 (ix2 e j) k = ix2 k j :=
  funext fun a => match a with | ⟨0, _⟩ => rfl | ⟨1, _⟩ => rfl

theorem s55 (e : Fin 400000) (f : Fin 128) : idx_main_v55 (ix2 e f) = ix2 e (col0 f) :=
  funext fun a => match a with | ⟨0, _⟩ => rfl | ⟨1, _⟩ => rfl
theorem s56 (e : Fin 400000) (f : Fin 128) : idx_main_v56 (ix2 e f) = ix2 e (col1 f) :=
  funext fun a => match a with | ⟨0, _⟩ => rfl | ⟨1, _⟩ => rfl
theorem s57 (e : Fin 400000) (f : Fin 128) : idx_main_v57 (ix2 e f) = ix2 e (col2 f) :=
  funext fun a => match a with | ⟨0, _⟩ => rfl | ⟨1, _⟩ => rfl
theorem s58 (e : Fin 400000) (f : Fin 128) : idx_main_v58 (ix2 e f) = ix2 e (col0 f) :=
  funext fun a => match a with | ⟨0, _⟩ => rfl | ⟨1, _⟩ => rfl
theorem s59 (e : Fin 400000) (f : Fin 128) : idx_main_v59 (ix2 e f) = ix2 e (col1 f) :=
  funext fun a => match a with | ⟨0, _⟩ => rfl | ⟨1, _⟩ => rfl
theorem s60 (e : Fin 400000) (f : Fin 128) : idx_main_v60 (ix2 e f) = ix2 e (col2 f) :=
  funext fun a => match a with | ⟨0, _⟩ => rfl | ⟨1, _⟩ => rfl

/-! ## The three stages -/

/-- The rectified sum of the two messages minus the mean, at bond e and feature f. -/
theorem centred_read (e : Fin 400000) (f : Fin 128) :
    val_main_v30 (F := Ideal) x0 x1 x2 x3 x4 x5 x6 x7 x10 (ix2 e f)
      = centred (fun k => val_main_v8 (F := Ideal) x0 x2 (ix2 e k)) (fun k => val_main_v17 (F := Ideal) x0 x3 (ix2 e k)) (fun k => x1 (ix2 e k))
          (fun k g => x4 (ix2 k g)) (fun k g => x5 (ix2 k g)) (fun g => x6 (ix2 (0 : Fin 1) g)) (fun g => x7 (ix2 (0 : Fin 1) g))
          (fun g => x10 (ix1 g)) f := by
  rw [val_main_v30_apply, val_main_v27_apply, val_main_v26_apply, val_main_v21_apply, val_main_v25_apply, val_main_v19_apply,
    val_main_v23_apply, bN_read, bP_read, mean_read, zero_read]
  simp only [val_main_v18_apply, val_main_v22_apply, l19, r19, l23, r23]
  rfl

/-- The normalized value at bond e and feature f. -/
theorem normed_read (e : Fin 400000) (f : Fin 128) :
    val_main_v42 (F := Ideal) x0 x1 x2 x3 x4 x5 x6 x7 x8 x9 x10 x11 (ix2 e f)
      = normed (fun g => val_main_v30 (F := Ideal) x0 x1 x2 x3 x4 x5 x6 x7 x10 (ix2 e g)) (fun g => x11 (ix1 g)) (fun g => x8 (ix1 g))
          (fun g => x9 (ix1 g)) f := by
  rw [val_main_v42_apply, val_main_v39_apply, val_main_v36_apply, scale_read, gamma_read, beta_read]
  rfl

/-- The GRU's input product at bond e, column j. -/
theorem mx_read (e : Fin 400000) (j : Fin 384) :
    val_main_v50 (F := Ideal) x0 x1 x2 x3 x4 x5 x6 x7 x8 x9 x10 x11 x12 x14 (ix2 e j)
      = gateIn (fun k => val_main_v42 (F := Ideal) x0 x1 x2 x3 x4 x5 x6 x7 x8 x9 x10 x11 (ix2 e k)) (fun k j => x12 (ix2 k j))
          (fun j => x14 (ix2 (0 : Fin 2) j)) j := by
  rw [val_main_v50_apply, val_main_v47_apply, bias0_read]
  simp only [l47, r47]
  rfl

/-- The GRU's recurrent product at bond e, column j. -/
theorem mh_read (e : Fin 400000) (j : Fin 384) :
    val_main_v54 (F := Ideal) x1 x13 x14 (ix2 e j)
      = gateIn (fun k => x1 (ix2 e k)) (fun k j => x13 (ix2 k j)) (fun j => x14 (ix2 (1 : Fin 2) j)) j := by
  rw [val_main_v54_apply, val_main_v51_apply, bias1_read]
  simp only [l51, r51]
  rfl

/-- The new state at bond e and feature f, over the normalized row u and the bond's row h. -/
theorem gru_read (e : Fin 400000) (f : Fin 128) :
    val_main_v82 (F := Ideal) x0 x1 x2 x3 x4 x5 x6 x7 x8 x9 x10 x11 x12 x13 x14 (ix2 e f)
      = gru (fun k => val_main_v42 (F := Ideal) x0 x1 x2 x3 x4 x5 x6 x7 x8 x9 x10 x11 (ix2 e k)) (fun k => x1 (ix2 e k))
          (fun k j => x12 (ix2 k j)) (fun k j => x13 (ix2 k j)) (fun j => x14 (ix2 (0 : Fin 2) j)) (fun j => x14 (ix2 (1 : Fin 2) j)) f := by
  rw [val_main_v82_apply, val_main_v78_apply, val_main_v81_apply, val_main_v80_apply, val_main_v77_apply, val_main_v76_apply,
    val_main_v75_apply, val_main_v74_apply, val_main_v72_apply, val_main_v70_apply, val_main_v69_apply, val_main_v68_apply,
    val_main_v67_apply, val_main_v65_apply, val_main_v63_apply, val_main_v62_apply, val_main_v61_apply,
    val_main_v55_apply, val_main_v56_apply, val_main_v57_apply, val_main_v58_apply, val_main_v59_apply, val_main_v60_apply,
    s55, s56, s57, s58, s59, s60, one64, one66, one71, one73, one79]
  simp only [mx_read, mh_read]
  rfl

/-- The reference's result is `G` of the two gathered tables and the arguments. -/
theorem result_eq :
    val_main_v82 (F := Ideal) x0 x1 x2 x3 x4 x5 x6 x7 x8 x9 x10 x11 x12 x13 x14
      = G (val_main_v8 (F := Ideal) x0 x2) (val_main_v17 (F := Ideal) x0 x3) x1 x4 x5 x6 x7 x8 x9 x10 x11 x12 x13 x14 := by
  funext i
  obtain ⟨e, f, rfl⟩ : ∃ (e : Fin 400000) (f : Fin 128), i = ix2 e f := ⟨i 0, i 1, eq_ix2 i⟩
  rw [gru_read]
  unfold G cell
  simp only [normed_read, centred_read]

end Cert.ReferenceIdeal.Rows

end
-- ==== Proof.Claims.lean ====
/-
  The five claims.

  Both idealized programs gather the same two tables with the same host operations (the last column of each pair
  array as a row index, negative indices wrapped by 400000), so the kernel's call finds exactly the arrays the
  reference's first stages compute; over them the kernel's result array and the reference's result are the same
  function `Cert.BondGRU.G` of the arguments. The frames of the two kernel programs are the generated ones, the
  reference's frame is its generated run with the result dropped, and the ideal pass's ledger is empty.
-/
import proofs.«164573_j5995774345719_1_alg».proof.Defs
import proofs.«164573_j5995774345719_1_alg».proof.Proof.Gen.Kernel.Frame
import proofs.«164573_j5995774345719_1_alg».proof.Proof.Gen.KernelIdeal.Frame
import proofs.«164573_j5995774345719_1_alg».proof.Proof.Gen.ReferenceIdeal.Run
import proofs.«164573_j5995774345719_1_alg».proof.Proof.Gen.Pre_finite_inputs
import proofs.«164573_j5995774345719_1_alg».proof.Proof.Gen.ReferenceIdeal.Read
import proofs.«164573_j5995774345719_1_alg».proof.Proof.KernelValue
import proofs.«164573_j5995774345719_1_alg».proof.Proof.RefValue
import Idealize.ShloMosaic.Lib.StableHlo.Run

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger of the ideal pass is empty. -/
theorem preserves : Cert.preserves_Kernel_KernelIdeal := trivial

section Gathers

open Cert.KernelIdeal Cert.KernelIdeal.Gen

variable (m : (ℓ : Loc nD τ sig) → Buf (Elt Ideal) ℓ)

set_option maxHeartbeats 4000000 in
/-- The table of next-node rows the call finds is the reference's gather of the same arguments. -/
theorem gathered_next (c : Dev nD) :
    (V m c main_v8 : S400000x128.Idx → EReal)
      = Cert.ReferenceIdeal.Read.val_main_v8 (F := Ideal) (m ((c : Thread nD τ).loc main_arg0)) (m ((c : Thread nD τ).loc main_arg2)) := by
  dsimp only [Gen.V, Gen.hostOps0]; after_results; rfl

set_option maxHeartbeats 4000000 in
/-- The table of previous-node rows likewise. -/
theorem gathered_prev (c : Dev nD) :
    (V m c main_v17 : S400000x128.Idx → EReal)
      = Cert.ReferenceIdeal.Read.val_main_v17 (F := Ideal) (m ((c : Thread nD τ).loc main_arg0)) (m ((c : Thread nD τ).loc main_arg3)) := by
  dsimp only [Gen.V, Gen.hostOps0]; after_results; rfl

end Gathers

/-- At the ideal values, from memories that agree on the arguments, the kernel's result array and the reference's
    result are `G` of the same tables and parameters. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v82_eq, Cert.ReferenceIdeal.Rows.result_eq]
  obtain ⟨a0, a1, a2, a3, a4, a5, a6, a7, a8, a9, a10, a11, a12, a13, a14⟩ := hagree c
  rw [a0, a1, a2, a3, a4, a5, a6, a7, a8, a9, a10, a11, a12, a13, a14]
  show _ = Cert.KernelIdeal.Blocks.result m c
  unfold Cert.KernelIdeal.Blocks.result
  rw [gathered_next m c, gathered_prev m c]

end Cert.Proof.Claims

end
-- ==== Proof.lean ====
/-
  The certificate of the bond message-passing layer: a Pallas kernel over 250 blocks of 1600 bonds against the jnp
  reference. At the ideal values both compute, for every bond and feature, the same expression of the bond's three
  rows — the two gathered node rows and the bond's own features — and of the layer's parameters: two dense messages,
  relu, batch norm with running statistics, and a GRU cell whose reset gate acts after the recurrent product
  (Proof/Cell.lean). Proof/KernelPayload.lean reads the kernel body's stored value at one element,
  Proof/KernelValue.lean lays the 250 written blocks over the result array, Proof/RefValue.lean reads the reference's
  host operations at one element, and Proof/Claims.lean states the five claims.
-/
import proofs.«164573_j5995774345719_1_alg».proof.Defs
import proofs.«164573_j5995774345719_1_alg».proof.Proof.Gen.Kernel
import proofs.«164573_j5995774345719_1_alg».proof.Proof.Gen.Kernel.Skeleton
import proofs.«164573_j5995774345719_1_alg».proof.Proof.Gen.Kernel.Launch
import proofs.«164573_j5995774345719_1_alg».proof.Proof.Gen.Kernel.Points
import proofs.«164573_j5995774345719_1_alg».proof.Proof.Gen.Kernel.Frame
import proofs.«164573_j5995774345719_1_alg».proof.Proof.Gen.KernelIdeal
import proofs.«164573_j5995774345719_1_alg».proof.Proof.Gen.KernelIdeal.Skeleton
import proofs.«164573_j5995774345719_1_alg».proof.Proof.Gen.KernelIdeal.Launch
import proofs.«164573_j5995774345719_1_alg».proof.Proof.Gen.KernelIdeal.Points
import proofs.«164573_j5995774345719_1_alg».proof.Proof.Gen.KernelIdeal.Frame
import proofs.«164573_j5995774345719_1_alg».proof.Proof.Gen.ReferenceIdeal
import proofs.«164573_j5995774345719_1_alg».proof.Proof.Gen.Pre_finite_inputs
import proofs.«164573_j5995774345719_1_alg».proof.Proof.Gen.KernelIdeal.Value
import proofs.«164573_j5995774345719_1_alg».proof.Proof.Gen.ReferenceIdeal.Run
import proofs.«164573_j5995774345719_1_alg».proof.Proof.Gen.ReferenceIdeal.Read
import proofs.«164573_j5995774345719_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
